-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S16384x1024 .f32) (main_arg1 : FVec F S4096x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S16384x1024 : Shape := ⟨2, ![16384, 1024]⟩
abbrev S4096x1024 : Shape := ⟨2, ![4096, 1024]⟩
abbrev S1024x4096 : Shape := ⟨2, ![1024, 4096]⟩
abbrev S16384x4096 : Shape := ⟨2, ![16384, 4096]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x1024, .bf16⟩
  | .hbm, ⟨3, _⟩ => ⟨S4096x1024, .bf16⟩
  | .hbm, ⟨4, _⟩ => ⟨S1024x4096, .f32⟩
  | .hbm, ⟨5, _⟩ => ⟨S1024x4096, .bf16⟩
  | .hbm, ⟨6, _⟩ => ⟨S16384x4096, .f32⟩
  | .hbm, ⟨7, _⟩ => ⟨S16384x1024, .f32⟩
  | .local _ .vmem, ⟨0, _⟩ => ⟨S128x1024, .bf16⟩
  | .local _ .vmem, ⟨1, _⟩ => ⟨S128x1024, .bf16⟩
  | .local _ .vmem, ⟨2, _⟩ => ⟨S4096x1024, .bf16⟩
  | .local _ .vmem, ⟨3, _⟩ => ⟨S1024x4096, .bf16⟩
  | .local _ .vmem, ⟨4, _⟩ => ⟨S128x4096, .f32⟩
  | .local _ .vmem, ⟨5, _⟩ => ⟨S128x4096, .f32⟩
  | .local _ .vmem, ⟨6, _⟩ => ⟨S128x1024, .f32⟩
  | .local _ .vmem, ⟨7, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  transposes_S4096x1024_S1024x4096_1_0 : S4096x1024.Transposes [1, 0] S1024x4096
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S128x4096_S128 : S128x4096.Reduces [1] S128
  shapeCasts_S128_S128x1 : S128.ShapeCasts S128x1
  broadcasts_S128x1_S128x4096 : S128x1.Broadcasts S128x4096
  inb_S128x4096_S128x4096_0_0 : ∀ a, (![0, 0] : Fin 2 → Nat) a + S128x4096.size a ≤ S128x4096.size a
  h_S128x4096 : 0 < S128x4096.numel
  dot_S128x1024_S1024x4096_S128x4096_1_0_0_1_n_n_wf : DotDims.WF S128x1024 S1024x4096 S128x4096 [1] [0] [0] [1] [] []
  dot_S128x4096_S4096x1024_S128x1024_1_0_0_1_n_n_wf : DotDims.WF S128x4096 S4096x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .bf16 = 32 ∨ (Rect.block (s := S16384x1024) S128x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S16384x4096.size a
  hwx0_3 : ∀ i : grid0.Coords, EltTy.bits .f32 = 32 ∨ (Rect.block (s := S16384x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S16384x1024.size a
  hwx0_4 : ∀ i : grid0.Coords, EltTy.bits .f32 = 32 ∨ (Rect.block (s := S16384x1024) S128x1024.size (cc0_transform_4 i) (hinb0_4 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S128x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S1024x4096 : Shape := ⟨2, ![1024, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S1024x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384x1, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x4096, .f32⟩
  | .hbm, ⟨43, _⟩ => ⟨S16384x4096, .f32⟩
  | .hbm, ⟨44, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  transposes_S4096x1024_S1024x4096_1_0 : S4096x1024.Transposes [1, 0] S1024x4096
  reducesTo_S16384x4096_S16384_d1 : S16384x4096.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S_S16384x4096 : S_.BroadcastsInDim S16384x4096 (![] : Fin 0 → Fin S16384x4096.rank)
  dot_S16384x1024_S1024x4096_S16384x4096_1_0_0_1_n_n_wf : DotDims.WF S16384x1024 S1024x4096 S16384x4096 [1] [0] [0] [1] [] []
  dot_S16384x4096_S4096x1024_S16384x1024_1_0_0_1_n_n_wf : DotDims.WF S16384x4096 S4096x1024 S16384x1024 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf

class Facts : Prop extends Facts₀ where

variable [Facts]
-- ==== Proof.Finite.lean ====
/-
  The precondition read: every entry of both inputs is a real number.

  The printed precondition is  all (|z| < +∞) ∧ all (|memory| < +∞).  On the extended reals `|x| = max x (-x)`, and
  `max x (-x) < ⊤` says `x < ⊤` and `-x < ⊤`, that is `x ≠ ⊤` and `x ≠ ⊥`: `x` is the image of a real.
-/
import proofs.«403339_j72567767433400_3_alg».proof.Pre_finite_inputs
import Idealize.ShloMosaic.PureOps.Ideal.Laws
import Idealize.ShloMosaic.Lib.ReduceAll
import Idealize.ShloMosaic.Lib.Affine
import Idealize.ShloMosaic.Lib.ValueIdx

noncomputable section

namespace SparseAttn.Finite

open Idealize.ShloMosaic

/-- The pattern `0x7F800000` is `+∞`. -/
theorem posInf_eq : Ideal.ofBits .f32 0x7F800000#32 = ⊤ := by
  simp [Ideal.ofBits, Ideal.ieee]

/-- An extended real whose absolute value is below `+∞` is a real. -/
theorem real_of_abs_lt_top (x : EReal) (h : max x (-x) < ⊤) : ∃ r : ℝ, x = r := by
  have h1 : x ≠ ⊤ := ne_of_lt (lt_of_le_of_lt (le_max_left _ _) h)
  have h2 : x ≠ ⊥ := by
    intro hx
    have : -x < ⊤ := lt_of_le_of_lt (le_max_right _ _) h
    rw [hx, EReal.neg_bot] at this
    exact lt_irrefl _ this
  exact ⟨_, (EReal.coe_toReal h1 h2).symm⟩

/-- The comparison word of `|x| < +∞` being `1` makes `x` a real. -/
theorem real_of_cmp (x : EReal) (h : Ideal.cmp .olt (max x (-x)) (Ideal.ofBits .f32 0x7F800000#32) = 1#1) :
    ∃ r : ℝ, x = r := by
  refine real_of_abs_lt_top x ?_
  rw [posInf_eq] at h
  have h' : BitVec.ofBool (decide (max x (-x) < ⊤)) = 1#1 := h
  by_contra hlt
  rw [decide_eq_false hlt] at h'
  exact absurd h' (by decide)

instance : Subsingleton Cert.Pre_finite_inputs.S_.Idx := ⟨fun a b => funext fun d => d.elim0⟩

variable [Cert.Pre_finite_inputs.Facts]

/-- Under the printed precondition both inputs hold real numbers only. -/
theorem real_of_pre (a0 : FVec Ideal Cert.Pre_finite_inputs.S16384x1024 .f32)
    (a1 : FVec Ideal Cert.Pre_finite_inputs.S4096x1024 .f32)
    (h : Cert.Pre_finite_inputs.fn (F := Ideal) a0 a1 = fun _ => 1#1) :
    (∀ i, ∃ r : ℝ, a0 i = r) ∧ (∀ i, ∃ r : ℝ, a1 i = r) := by
  have h0 := congrFun h ValueIdx.ix0
  dsimp only [Cert.Pre_finite_inputs.fn] at h0
  obtain ⟨h3, h7⟩ := IntOp.andi_eq_one.1 h0
  refine ⟨fun i => ?_, fun i => ?_⟩
  · have e := Host.reduce_andi_all _ _ _ _ _ h3 i
    exact real_of_cmp (a0 i) e
  · have e := Host.reduce_andi_all _ _ _ _ _ h7 i
    exact real_of_cmp (a1 i) e

end SparseAttn.Finite

end
-- ==== Proof.RowMath.lean ====
/-
  The row-wise mathematics of the sparse-attention addressing step, over an abstract finite index type.

  A row of scores `w` is turned into attention weights in three steps:
    1. a softmax, written with the row's maximum subtracted:  a j = exp (w j - M) / ∑ k, exp (w k - M),  M = max w;
    2. the hard-shrink  ŵ j = max (a j - λ) 0 * a j / (|a j - λ| + ε);
    3. a second softmax of ŵ.
  The two programs differ only in step 3: one subtracts the row's maximum of ŵ before exponentiating and the
  other does not.  On the extended reals  exp (x - m) / ∑ exp (x k - m) = exp x / ∑ exp (x k)  needs `x` and `m`
  to be real numbers (at `m = ⊤` the left side is the junk quotient `0 / 0`), so the theorem below first shows that
  every intermediate value of a row of REAL scores is real:  M is a real because the row is finite and nonempty,
  the first normalizer is a positive real (a sum of exponentials), `|d| + ε` is a positive real because `ε > 0`.
-/
import Idealize.ShloMosaic.PureOps.Ideal

noncomputable section

namespace SparseAttn

open Idealize.ShloMosaic

variable {J : Type} [Fintype J]

/-- The maximum of a row, folded from the bottom value `b`. -/
def rowMax (b : EReal) (x : J → EReal) : EReal := Finset.univ.fold max b x

/-- Softmax with the shift `m` subtracted before exponentiating. -/
def softmaxShift (m : EReal) (x : J → EReal) : J → EReal :=
  fun j => Ideal.div (Ideal.exp (x j - m)) (∑ k, Ideal.exp (x k - m))

/-- Softmax with no shift. -/
def softmaxPlain (x : J → EReal) : J → EReal :=
  fun j => Ideal.div (Ideal.exp (x j)) (∑ k, Ideal.exp (x k))

/-- The hard-shrink of one weight: `max (a - λ) 0 * a / (|a - λ| + ε)`, the absolute value spelt `max d (-d)`. -/
def shrink (lam eps a : EReal) : EReal :=
  Ideal.div (max (a - lam) 0 * a) (max (a - lam) (-(a - lam)) + eps)

/-- The shrunk weights of a row of scores. -/
def shrunk (b lam eps : EReal) (w : J → EReal) : J → EReal :=
  fun j => shrink lam eps (softmaxShift (rowMax b w) w j)

/-- The attention row with the second softmax unshifted. -/
def attPlain (b lam eps : EReal) (w : J → EReal) : J → EReal := softmaxPlain (shrunk b lam eps w)

/-- The attention row with the second softmax shifted by the row's maximum. -/
def attShift (b lam eps : EReal) (w : J → EReal) : J → EReal :=
  softmaxShift (rowMax b (shrunk b lam eps w)) (shrunk b lam eps w)

/-! ## Finite sums of reals -/

theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A contraction of two real rows is a real. -/
theorem dot_real {K : Type} [Fintype K] (x y : K → EReal) (hx : ∀ k, ∃ r : ℝ, x k = r) (hy : ∀ k, ∃ r : ℝ, y k = r) :
    ∃ r : ℝ, ∑ k, x k * y k = r := by
  choose xr hxr using hx
  choose yr hyr using hy
  refine ⟨∑ k, xr k * yr k, ?_⟩
  rw [← sum_coe]
  exact Finset.sum_congr rfl fun k _ => by rw [hxr k, hyr k, EReal.coe_mul]

/-! ## The maximum of a finite nonempty real row is real -/

theorem rowMax_real [Nonempty J] (x : J → ℝ) : ∃ m : ℝ, rowMax ⊥ (fun j => (x j : EReal)) = m := by
  have htop : rowMax ⊥ (fun j => (x j : EReal)) ≠ ⊤ := by
    refine ne_of_lt ?_
    unfold rowMax
    rw [Finset.fold_max_lt]
    exact ⟨bot_lt_top, fun j _ => EReal.coe_lt_top _⟩
  have hbot : rowMax ⊥ (fun j => (x j : EReal)) ≠ ⊥ := by
    obtain ⟨j0⟩ := ‹Nonempty J›
    refine ne_of_gt (lt_of_lt_of_le (EReal.bot_lt_coe (x j0)) ?_)
    unfold rowMax
    rw [Finset.le_fold_max]
    exact Or.inr ⟨j0, Finset.mem_univ _, le_rfl⟩
  exact ⟨_, (EReal.coe_toReal htop hbot).symm⟩

/-! ## The softmax of a real row -/

/-- The shifted softmax of a real row by a real shift, as a real quotient. -/
theorem softmaxShift_coe [Nonempty J] (x : J → ℝ) (m : ℝ) (j : J) :
    softmaxShift (m : EReal) (fun k => (x k : EReal)) j
      = ((Real.exp (x j - m) / ∑ k, Real.exp (x k - m) : ℝ) : EReal) := by
  have hpos : 0 < ∑ k, Real.exp (x k - m) := Finset.sum_pos (fun k _ => Real.exp_pos _) Finset.univ_nonempty
  unfold softmaxShift
  have hs : ∑ k, Ideal.exp ((x k : EReal) - (m : EReal)) = ((∑ k, Real.exp (x k - m) : ℝ) : EReal) := by
    rw [← sum_coe]
    exact Finset.sum_congr rfl fun k _ => by rw [← EReal.coe_sub, Ideal.exp_coe]
  rw [hs, Ideal.div_coe (ne_of_gt hpos), ← EReal.coe_sub, Ideal.exp_coe, ← EReal.coe_mul]
  congr 1
  rw [mul_one_div]

/-- The plain softmax of a real row, as a real quotient. -/
theorem softmaxPlain_coe [Nonempty J] (x : J → ℝ) (j : J) :
    softmaxPlain (fun k => (x k : EReal)) j = ((Real.exp (x j) / ∑ k, Real.exp (x k) : ℝ) : EReal) := by
  have hpos : 0 < ∑ k, Real.exp (x k) := Finset.sum_pos (fun k _ => Real.exp_pos _) Finset.univ_nonempty
  unfold softmaxPlain
  have hs : ∑ k, Ideal.exp ((x k : EReal)) = ((∑ k, Real.exp (x k) : ℝ) : EReal) := by
    rw [← sum_coe]
    exact Finset.sum_congr rfl fun k _ => by rw [Ideal.exp_coe]
  rw [hs, Ideal.div_coe (ne_of_gt hpos), Ideal.exp_coe, ← EReal.coe_mul]
  congr 1
  rw [mul_one_div]

/-- Softmax does not see a real shift: the factor `exp (-m)` cancels between numerator and normalizer. -/
theorem softmaxShift_eq_plain [Nonempty J] (x : J → ℝ) (m : ℝ) :
    softmaxShift (m : EReal) (fun k => (x k : EReal)) = softmaxPlain (fun k => (x k : EReal)) := by
  funext j
  rw [softmaxShift_coe, softmaxPlain_coe]
  congr 1
  have he : Real.exp m ≠ 0 := ne_of_gt (Real.exp_pos m)
  simp only [Real.exp_sub]
  rw [← Finset.sum_div, div_div_div_cancel_right₀ he]

/-! ## The hard-shrink of a real weight is real -/

/-- The coercion of the reals into the extended reals is monotone, so it commutes with `max`. -/
theorem coe_max (x y : ℝ) : ((max x y : ℝ) : EReal) = max (x : EReal) (y : EReal) :=
  EReal.coe_strictMono.monotone.map_max

theorem shrink_real (lam eps a : ℝ) (heps : 0 < eps) : ∃ r : ℝ, shrink (lam : EReal) (eps : EReal) (a : EReal) = r := by
  have hden : 0 < max (a - lam) (-(a - lam)) + eps := by
    have : 0 ≤ max (a - lam) (-(a - lam)) := by
      rcases le_total 0 (a - lam) with h | h
      · exact le_trans h (le_max_left _ _)
      · exact le_trans (neg_nonneg.mpr h) (le_max_right _ _)
    linarith
  refine ⟨max (a - lam) 0 * a * (1 / (max (a - lam) (-(a - lam)) + eps)), ?_⟩
  unfold shrink
  have h1 : max ((a : EReal) - (lam : EReal)) (-((a : EReal) - (lam : EReal))) + (eps : EReal)
      = ((max (a - lam) (-(a - lam)) + eps : ℝ) : EReal) := by
    rw [← EReal.coe_sub, ← EReal.coe_neg, ← coe_max, ← EReal.coe_add]
  have h2 : max ((a : EReal) - (lam : EReal)) 0 * (a : EReal) = ((max (a - lam) 0 * a : ℝ) : EReal) := by
    rw [← EReal.coe_sub, ← EReal.coe_zero, ← coe_max, ← EReal.coe_mul]
  rw [h1, h2, Ideal.div_coe (ne_of_gt hden), ← EReal.coe_mul]

/-! ## The two attention rows agree on real scores -/

/-- On a row of real scores, with `b` the bottom, `λ` a real and `ε` a positive real, shifting the second softmax by the
    row's maximum changes nothing. -/
theorem attShift_eq_attPlain [Nonempty J] {b lam eps : EReal} (hb : b = ⊥) (hl : ∃ l : ℝ, lam = l)
    (he : ∃ e : ℝ, 0 < e ∧ eps = e) (w : J → EReal) (hw : ∀ j, ∃ r : ℝ, w j = r) :
    attShift b lam eps w = attPlain b lam eps w := by
  subst hb
  obtain ⟨l, rfl⟩ := hl
  obtain ⟨e, he0, rfl⟩ := he
  choose wr hwr using hw
  obtain rfl : w = fun j => (wr j : EReal) := funext hwr
  obtain ⟨m1, hm1⟩ := rowMax_real wr
  have hsh : ∀ j, ∃ r : ℝ, shrunk ⊥ (l : EReal) (e : EReal) (fun j => (wr j : EReal)) j = r := fun j => by
    unfold shrunk
    rw [hm1, softmaxShift_coe]
    exact shrink_real l e _ he0
  choose sr hsr using hsh
  have hs : shrunk ⊥ (l : EReal) (e : EReal) (fun j => (wr j : EReal)) = fun j => (sr j : EReal) := funext hsr
  unfold attShift attPlain
  rw [hs]
  obtain ⟨m2, hm2⟩ := rowMax_real sr
  rw [hm2]
  exact softmaxShift_eq_plain sr m2

end SparseAttn

end
-- ==== Proof.AttnSpec.lean ====
/-
  The sparse-attention read, array by array, at the ideal values.

  For `z : [16384, 1024]` and `memory : [4096, 1024]`:
    * the score row of batch row `r` is  w r j = ∑ k, z (r, k) * memory (j, k)   (z · memoryᵀ);
    * the attention row is the row-wise map of RowMath.lean applied to it, in its two spellings
      (`attPlain`: second softmax unshifted; `attShift`: second softmax shifted by its row maximum);
    * the read-out is  ẑ (r, c) = ∑ j, att (r, j) * memory (j, c).
  The three float literals the programs share are read here, once: the reduction's bottom `-∞`, the threshold
  `λ = 2 / 4096 = 2⁻¹¹` and `ε` (the binary32 nearest `10⁻¹²`, a positive real).  With them, and every entry of
  `z` and `memory` a real, each score is a finite sum of real products, so the two spellings of the attention
  array are one array (`attShift_eq_attPlain`).
-/
import proofs.«403339_j72567767433400_3_alg».proof.Proof.RowMath
import Idealize.ShloMosaic.Lib.ValueIdx

noncomputable section

namespace SparseAttn

open Idealize.ShloMosaic Idealize.ShloMosaic.ValueIdx

abbrev ShZ : Shape := ⟨2, ![16384, 1024]⟩
abbrev ShM : Shape := ⟨2, ![4096, 1024]⟩
abbrev ShA : Shape := ⟨2, ![16384, 4096]⟩

/-! ## The literals -/

/-- The reductions' bottom, `-∞`. -/
abbrev negInf : EReal := Ideal.ofBits .f32 0xFF800000#32
/-- The shrink threshold `λ = 2 / 4096`. -/
abbrev lam : EReal := Ideal.ofBits .f32 0x3A000000#32
/-- The shrink's `ε`. -/
abbrev eps : EReal := Ideal.ofBits .f32 0x2B8CBCCC#32

theorem negInf_eq : negInf = ⊥ := by
  simp [negInf, Ideal.ofBits, Ideal.ieee]

theorem lam_real : ∃ l : ℝ, lam = l := by
  refine ⟨(2 : ℝ) ^ (-11 : ℤ), ?_⟩
  simp [lam, Ideal.ofBits, Ideal.ieee, -EReal.coe_mul]
  norm_num

theorem eps_real : ∃ e : ℝ, 0 < e ∧ eps = e := by
  refine ⟨(9223372 : ℝ) * (2 : ℝ) ^ (-63 : ℤ), by positivity, ?_⟩
  simp [eps, Ideal.ofBits, Ideal.ieee, -EReal.coe_mul]

/-! ## The arrays -/

/-- The score row of batch row `r`: `z · memoryᵀ` at row `r`. -/
def scoreRow (z : ShZ.Idx → EReal) (mem : ShM.Idx → EReal) (r : Fin 16384) : Fin 4096 → EReal :=
  fun j => ∑ k : Fin 1024, z (ix2 r k) * mem (ix2 j k)

/-- The attention array, second softmax unshifted. -/
def attK (z : ShZ.Idx → EReal) (mem : ShM.Idx → EReal) : ShA.Idx → EReal :=
  fun i => attPlain negInf lam eps (scoreRow z mem (i 0)) (i 1)

/-- The attention array, second softmax shifted by its row maximum. -/
def attR (z : ShZ.Idx → EReal) (mem : ShM.Idx → EReal) : ShA.Idx → EReal :=
  fun i => attShift negInf lam eps (scoreRow z mem (i 0)) (i 1)

/-- The read-out `att · memory`. -/
def readOut (att : ShA.Idx → EReal) (mem : ShM.Idx → EReal) : ShZ.Idx → EReal :=
  fun i => ∑ j : Fin 4096, att (ix2 (i 0) j) * mem (ix2 j (i 1))

/-- Every score of real inputs is a real. -/
theorem scoreRow_real {z : ShZ.Idx → EReal} {mem : ShM.Idx → EReal} (hz : ∀ i, ∃ r : ℝ, z i = r)
    (hm : ∀ i, ∃ r : ℝ, mem i = r) (r : Fin 16384) (j : Fin 4096) : ∃ x : ℝ, scoreRow z mem r j = x :=
  dot_real _ _ (fun _ => hz _) (fun _ => hm _)

/-- On real inputs the two spellings of the attention array are one array. -/
theorem attR_eq_attK {z : ShZ.Idx → EReal} {mem : ShM.Idx → EReal} (hz : ∀ i, ∃ r : ℝ, z i = r)
    (hm : ∀ i, ∃ r : ℝ, mem i = r) : attR z mem = attK z mem := by
  haveI : Nonempty (Fin 4096) := ⟨⟨0, by decide⟩⟩
  funext i
  exact congrFun (attShift_eq_attPlain negInf_eq lam_real eps_real _ (scoreRow_real hz hm (i 0))) (i 1)

end SparseAttn

end
-- ==== Proof.KernelBlock.lean ====
/-
  What the kernel body computes for one block of 128 batch rows, read at an index.

  The body's first payload is, for the block's rows `x0 : [128, 1024]` and the whole `memoryᵀ : [1024, 4096]`:
  the score block `x0 · memoryᵀ`; a softmax along each row with the row maximum subtracted (the maximum and the sum
  are lane reductions to `[128]`, put back as a column `[128, 1]` and broadcast along the row); the hard-shrink;
  a second softmax with NO shift.  Read at `(p, q)` this is `attPlain` of row `p` of the score block.  The second
  payload contracts the first with `memory : [4096, 1024]`.
  Each stage is named here so that the printed payload is their composition by unfolding, and each is read at an
  index from the rows of its operand.
-/
import proofs.«403339_j72567767433400_3_alg».proof.Proof.Gen.KernelIdeal.Skeleton
import proofs.«403339_j72567767433400_3_alg».proof.Proof.AttnSpec
import Idealize.ShloMosaic.PureOps.Ideal.Laws
import Idealize.ShloMosaic.Lib.Pipeline.Value
import Idealize.ShloMosaic.Lib.ValueIdx

noncomputable section

namespace Cert.KernelIdeal.Blk

open Cert.KernelIdeal Cert.KernelIdeal.Gen
open Idealize.ShloMosaic Idealize.ShloMosaic.ValueIdx SparseAttn

/-! ## A per-row value put back along the row -/

/-- A `[128]` vector as a column `[128, 1]`, broadcast along the rows of `[128, 4096]`. -/
def keep (v : FVec Ideal S128 .f32) : FVec Ideal S128x4096 .f32 :=
  broadcastTo S128x4096 (shapeCast S128x1 v shapeCasts_S128_S128x1) broadcasts_S128x1_S128x4096

theorem keep_apply (v : FVec Ideal S128 .f32) (p : Fin 128) (q : Fin 4096) : keep v (ix2 p q) = v (ix1 p) := by
  unfold keep
  rw [broadcastTo_apply _ broadcasts_S128x1_S128x4096 (ix2 p q) (ix2 p (0 : Fin 1)) (fun a => match a with
    | ⟨0, _⟩ => by show p.val = if (128 : Nat) = 1 then 0 else p.val; rw [if_neg (by decide)]
    | ⟨1, _⟩ => by show 0 = if (1 : Nat) = 1 then 0 else q.val; rw [if_pos rfl])]
  exact shapeCast_apply v shapeCasts_S128_S128x1 (ix2 p (0 : Fin 1)) (ix1 p) (by
    rw [Shape.rowMajor_val_one, Shape.rowMajor_val_two]; show p.val = p.val * 1 + 0; omega)

/-- The index a lane reduction inserts is `(p, k)`. -/
theorem lift_row (p : Fin 128) (k : Fin 4096) : reduces_S128x4096_S128.lift (ix1 p) k = ix2 p k :=
  funext fun a => Fin.ext (by match a with | ⟨0, _⟩ => rfl | ⟨1, _⟩ => rfl)

/-- The row maximum, from `-∞`, put back along the row. -/
def kRowMax (X : FVec Ideal S128x4096 .f32) : FVec Ideal S128x4096 .f32 :=
  keep (multiReduction .maximumf [1] S128 X 0xFF800000#32 reduces_S128x4096_S128 (.inl rfl) rfl)

/-- The row sum, put back along the row. -/
def kRowSum (X : FVec Ideal S128x4096 .f32) : FVec Ideal S128x4096 .f32 :=
  keep (multiReduction .add [1] S128 X 0x00000000#32 reduces_S128x4096_S128 (.inl rfl) rfl)

theorem kRowMax_apply (X : FVec Ideal S128x4096 .f32) (f : Fin 128 → Fin 4096 → EReal)
    (hX : ∀ p q, X (ix2 p q) = f p q) (p : Fin 128) (q : Fin 4096) : kRowMax X (ix2 p q) = rowMax negInf (f p) := by
  unfold kRowMax
  rw [keep_apply]
  refine (Ideal.multiReduction_maximumf_single X 0xFF800000#32 reduces_S128x4096_S128 (.inl rfl) rfl (ix1 p)).trans ?_
  have hf : (X ∘ reduces_S128x4096_S128.lift (ix1 p)) = f p :=
    funext fun k => (congrArg X (lift_row p k)).trans (hX p k)
  exact congrArg (fun g : Fin 4096 → EReal => Finset.univ.fold max negInf g) hf

theorem kRowSum_apply (X : FVec Ideal S128x4096 .f32) (f : Fin 128 → Fin 4096 → EReal)
    (hX : ∀ p q, X (ix2 p q) = f p q) (p : Fin 128) (q : Fin 4096) : kRowSum X (ix2 p q) = ∑ k : Fin 4096, f p k := by
  unfold kRowSum
  rw [keep_apply]
  refine (Ideal.multiReduction_add_single X 0x00000000#32 reduces_S128x4096_S128 (.inl rfl) rfl (ix1 p)).trans ?_
  exact Finset.sum_congr rfl fun k _ => (congrArg X (lift_row p k)).trans (hX p k)

/-! ## The two softmaxes and the shrink, on a block -/

def kSoftShift (X : FVec Ideal S128x4096 .f32) : FVec Ideal S128x4096 .f32 :=
  divf (exp (subf X (kRowMax X))) (kRowSum (exp (subf X (kRowMax X))))

def kSoftPlain (X : FVec Ideal S128x4096 .f32) : FVec Ideal S128x4096 .f32 :=
  divf (exp X) (kRowSum (exp X))

def kShrink (A : FVec Ideal S128x4096 .f32) : FVec Ideal S128x4096 .f32 :=
  divf (mulf (maximumf (subf A (broadcast S128x4096 (Scalar.ofBits .f32 0x3A000000#32)))
      (broadcast S128x4096 (Scalar.ofBits .f32 0x00000000#32))) A)
    (addf (absf (subf A (broadcast S128x4096 (Scalar.ofBits .f32 0x3A000000#32))))
      (broadcast S128x4096 (Scalar.ofBits .f32 0x2B8CBCCC#32)))

theorem kSoftShift_apply (X : FVec Ideal S128x4096 .f32) (f : Fin 128 → Fin 4096 → EReal)
    (hX : ∀ p q, X (ix2 p q) = f p q) (p : Fin 128) (q : Fin 4096) :
    kSoftShift X (ix2 p q) = softmaxShift (rowMax negInf (f p)) (f p) q := by
  have hE : ∀ p q, (exp (subf X (kRowMax X))) (ix2 p q) = Ideal.exp (f p q - rowMax negInf (f p)) := fun p q => by
    show Ideal.exp (X (ix2 p q) - kRowMax X (ix2 p q)) = _
    rw [hX, kRowMax_apply X f hX]
  unfold kSoftShift
  show Ideal.div ((exp (subf X (kRowMax X))) (ix2 p q)) (kRowSum (exp (subf X (kRowMax X))) (ix2 p q)) = _
  rw [hE, kRowSum_apply _ _ hE]
  rfl

theorem kSoftPlain_apply (X : FVec Ideal S128x4096 .f32) (f : Fin 128 → Fin 4096 → EReal)
    (hX : ∀ p q, X (ix2 p q) = f p q) (p : Fin 128) (q : Fin 4096) :
    kSoftPlain X (ix2 p q) = softmaxPlain (f p) q := by
  have hE : ∀ p q, (exp X) (ix2 p q) = Ideal.exp (f p q) := fun p q => by
    show Ideal.exp (X (ix2 p q)) = _
    rw [hX]
  unfold kSoftPlain
  show Ideal.div ((exp X) (ix2 p q)) (kRowSum (exp X) (ix2 p q)) = _
  rw [hE, kRowSum_apply _ _ hE]
  rfl

theorem kShrink_apply (A : FVec Ideal S128x4096 .f32) (i : S128x4096.Idx) :
    kShrink A i = shrink lam eps (A i) := by
  show Ideal.div (max (A i - lam) (Ideal.ofBits .f32 0x00000000#32) * A i) (max (A i - lam) (-(A i - lam)) + eps) = _
  rw [Ideal.ofBits_zero_f32]
  rfl

/-! ## The score block -/

def scoreBlk (x0 : FVec Ideal S128x1024 .bf16) (x2 : FVec Ideal S1024x4096 .bf16) : FVec Ideal S128x4096 .f32 :=
  matmul dot_S128x1024_S1024x4096_S128x4096_1_0_0_1_n_n none (shapeCast S128x1024 x0 shapeCasts_S128x1024_S128x1024)
    (shapeCast S1024x4096 x2 shapeCasts_S1024x4096_S1024x4096) (constant S128x4096 .f32 0x00000000#32)

theorem lhs_score_0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs_score_1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_score_0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs_score_1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- The score block at `(p, q)`: row `p` of the block against column `q` of `memoryᵀ`. -/
theorem scoreBlk_apply (x0 : FVec Ideal S128x1024 .bf16) (x2 : FVec Ideal S1024x4096 .bf16) (p : Fin 128) (q : Fin 4096) :
    scoreBlk x0 x2 (ix2 p q) = ∑ k : Fin 1024, x0 (ix2 p k) * x2 (ix2 k q) := by
  unfold scoreBlk
  rw [shapeCast_self, shapeCast_self]
  simp only [matmul]
  rw [Ideal.matmul_constant_zero_apply, ← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx (ix2 p q) ((ValueIdx.contrEquiv1 dot_S128x1024_S1024x4096_S128x4096_1_0_0_1_n_n 1024 rfl rfl).symm k) = ix2 p k := funext fun a => Fin.ext (by
    match a with
    | ⟨0, _⟩ => exact lhs_score_0 _ _
    | ⟨1, _⟩ => exact (lhs_score_1 _ _).trans hk)
  have er : dot_S128x1024_S1024x4096_S128x4096_1_0_0_1_n_n.rhsIdx (ix2 p q) ((ValueIdx.contrEquiv1 dot_S128x1024_S1024x4096_S128x4096_1_0_0_1_n_n 1024 rfl rfl).symm k) = ix2 k q := funext fun a => Fin.ext (by
    match a with
    | ⟨0, _⟩ => exact (rhs_score_0 _ _).trans hk
    | ⟨1, _⟩ => exact rhs_score_1 _ _)
  rw [el, er]

/-! ## The first payload -/

/-- The printed payload is the composition of the stages. -/
theorem pay1_eq (x0 : Vec Ideal S128x1024 .bf16) (x2 : Vec Ideal S1024x4096 .bf16) :
    k0_pay1 (F := Ideal) x0 x2 = kSoftPlain (kShrink (kSoftShift (scoreBlk x0 x2))) := rfl

/-- The attention block at `(p, q)`: the unshifted spelling applied to row `p` of the score block. -/
theorem pay1_apply (x0 : FVec Ideal S128x1024 .bf16) (x2 : FVec Ideal S1024x4096 .bf16) (p : Fin 128) (q : Fin 4096) :
    k0_pay1 (F := Ideal) x0 x2 (ix2 p q)
      = attPlain negInf lam eps (fun j => ∑ k : Fin 1024, x0 (ix2 p k) * x2 (ix2 k j)) q := by
  rw [pay1_eq]
  have h1 := scoreBlk_apply x0 x2
  have h2 := kSoftShift_apply _ _ h1
  have h3 : ∀ p q, kShrink (kSoftShift (scoreBlk x0 x2)) (ix2 p q)
      = shrunk negInf lam eps (fun j => ∑ k : Fin 1024, x0 (ix2 p k) * x2 (ix2 k j)) q := fun p q => by
    rw [kShrink_apply, h2]
    rfl
  exact kSoftPlain_apply _ _ h3 p q

/-! ## The second payload -/

def readBlk (A : FVec Ideal S128x4096 .f32) (x4 : FVec Ideal S4096x1024 .bf16) : FVec Ideal S128x1024 .f32 :=
  matmul dot_S128x4096_S4096x1024_S128x1024_1_0_0_1_n_n none (truncf .bf16 A bitsLt_bf16_f32)
    (shapeCast S4096x1024 x4 shapeCasts_S4096x1024_S4096x1024) (constant S128x1024 .f32 0x00000000#32)

theorem pay2_eq (x0 : Vec Ideal S128x1024 .bf16) (x2 : Vec Ideal S1024x4096 .bf16) (x4 : Vec Ideal S4096x1024 .bf16) :
    k0_pay2 (F := Ideal) x0 x2 x4 = readBlk (k0_pay1 (F := Ideal) x0 x2) x4 := rfl

theorem lhs_read_0 (i : S128x1024.Idx) (q : dot_S128x4096_S4096x1024_S128x1024_1_0_0_1_n_n.contr.Idx) :
    (dot_S128x4096_S4096x1024_S128x1024_1_0_0_1_n_n.lhsIdx i q 0).val = (i 0).val := by
  unfold DotDims.lhsIdx
  rw [dif_neg (show ¬(0 : Fin S128x4096.rank) ∈ dot_S128x4096_S4096x1024_S128x1024_1_0_0_1_n_n.lhsBatch by decide), dif_pos (show (0 : Fin S128x4096.rank) ∈ dot_S128x4096_S4096x1024_S128x1024_1_0_0_1_n_n.lhsNonContracting by decide)]
  rfl
theorem lhs_read_1 (i : S128x1024.Idx) (q : dot_S128x4096_S4096x1024_S128x1024_1_0_0_1_n_n.contr.Idx) :
    (dot_S128x4096_S4096x1024_S128x1024_1_0_0_1_n_n.lhsIdx i q 1).val = (q ⟨0, by decide⟩).val :=
  dot_S128x4096_S4096x1024_S128x1024_1_0_0_1_n_n.lhsIdx_val_of_single rfl i q
theorem rhs_read_0 (i : S128x1024.Idx) (q : dot_S128x4096_S4096x1024_S128x1024_1_0_0_1_n_n.contr.Idx) :
    (dot_S128x4096_S4096x1024_S128x1024_1_0_0_1_n_n.rhsIdx i q 0).val = (q ⟨0, by decide⟩).val :=
  dot_S128x4096_S4096x1024_S128x1024_1_0_0_1_n_n.rhsIdx_val_of_single rfl i q
theorem rhs_read_1 (i : S128x1024.Idx) (q : dot_S128x4096_S4096x1024_S128x1024_1_0_0_1_n_n.contr.Idx) :
    (dot_S128x4096_S4096x1024_S128x1024_1_0_0_1_n_n.rhsIdx i q 1).val = (i 1).val := by
  unfold DotDims.rhsIdx
  rw [dif_neg (show ¬(1 : Fin S4096x1024.rank) ∈ dot_S128x4096_S4096x1024_S128x1024_1_0_0_1_n_n.rhsBatch by decide), dif_pos (show (1 : Fin S4096x1024.rank) ∈ dot_S128x4096_S4096x1024_S128x1024_1_0_0_1_n_n.rhsNonContracting by decide)]
  rfl

/-- The read-out block at `(p, c)`: row `p` of the attention block against column `c` of `memory`. -/
theorem readBlk_apply (A : FVec Ideal S128x4096 .f32) (x4 : FVec Ideal S4096x1024 .bf16) (p : Fin 128) (c : Fin 1024) :
    readBlk A x4 (ix2 p c) = ∑ j : Fin 4096, A (ix2 p j) * x4 (ix2 j c) := by
  unfold readBlk
  rw [shapeCast_self]
  simp only [matmul]
  rw [Ideal.matmul_constant_zero_apply, ← Equiv.sum_comp (ValueIdx.contrEquiv1 dot_S128x4096_S4096x1024_S128x1024_1_0_0_1_n_n 4096 rfl rfl).symm]
  refine Finset.sum_congr rfl fun k _ => ?_
  have hk := ValueIdx.contrEquiv1_symm_val dot_S128x4096_S4096x1024_S128x1024_1_0_0_1_n_n 4096 rfl rfl k
  have el : dot_S128x4096_S4096x1024_S128x1024_1_0_0_1_n_n.lhsIdx (ix2 p c) ((ValueIdx.contrEquiv1 dot_S128x4096_S4096x1024_S128x1024_1_0_0_1_n_n 4096 rfl rfl).symm k) = ix2 p k := funext fun a => Fin.ext (by
    match a with
    | ⟨0, _⟩ => exact lhs_read_0 _ _
    | ⟨1, _⟩ => exact (lhs_read_1 _ _).trans hk)
  have er : dot_S128x4096_S4096x1024_S128x1024_1_0_0_1_n_n.rhsIdx (ix2 p c) ((ValueIdx.contrEquiv1 dot_S128x4096_S4096x1024_S128x1024_1_0_0_1_n_n 4096 rfl rfl).symm k) = ix2 k c := funext fun a => Fin.ext (by
    match a with
    | ⟨0, _⟩ => exact (rhs_read_0 _ _).trans hk
    | ⟨1, _⟩ => exact rhs_read_1 _ _)
  rw [el, er]
  rfl

end Cert.KernelIdeal.Blk

end
-- ==== Proof.KernelArrays.lean ====
/-
  The kernel's two result arrays, from its blocks.

  Grid point `t` of 128 works on batch rows `128 t … 128 t + 127`: its first input block is those rows of `z`
  (the host's change of format is the identity at the ideal values), its other two input blocks are the whole
  `memory` and the whole `memoryᵀ` (the host's transpose: entry `(k, j)` of it is `memory (j, k)`).  So the score block's
  row `p` is the score row of batch row `128 t + p`, what the point writes back to the first result is rows
  `128 t …` of `attK`, and to the second the same rows of `readOut attK`.  The 128 row blocks tile both results (batch
  row `r` is in block `r / 128`), so after the run the results ARE those arrays.
-/
import proofs.«403339_j72567767433400_3_alg».proof.Proof.Gen.KernelIdeal.Value
import proofs.«403339_j72567767433400_3_alg».proof.Proof.KernelBlock
import Idealize.ShloMosaic.Lib.Pipeline.Value
import Idealize.ShloMosaic.Lib.StableHlo.Run
import Idealize.ShloMosaic.Lib.Tactic

set_option maxRecDepth 16384

noncomputable section

namespace Cert.KernelIdeal.ArrValue

open Cert.KernelIdeal Cert.KernelIdeal.Gen Cert.KernelIdeal.Value Cert.KernelIdeal.Blk
open Idealize.ShloMosaic Idealize.ShloMosaic.TcCoe Idealize.SL.Sem Idealize.ShloMosaic.ValueIdx SparseAttn
open Idealize.ShloMosaic.Pipeline (Dat)

variable (m : (ℓ : Loc nD τ sig) → Buf (Elt Ideal) ℓ) (ρ : Dev nD → PrngReg)

/-- The argument `z` on core `c`. -/
abbrev zArr (c : Dev nD) : ShZ.Idx → EReal := m ((c : Thread nD τ).loc main_arg0)
/-- The argument `memory` on core `c`. -/
abbrev memArr (c : Dev nD) : ShM.Idx → EReal := m ((c : Thread nD τ).loc main_arg1)

/-- The three input blocks of point `t`, at their literal types. -/
abbrev zBlk (c : Dev nD) (t : Fin cfg0.N) : FVec Ideal S128x1024 .bf16 := iblk m c 0 t
abbrev memBlk (c : Dev nD) (t : Fin cfg0.N) : FVec Ideal S4096x1024 .bf16 := iblk m c 1 t
abbrev memTBlk (c : Dev nD) (t : Fin cfg0.N) : FVec Ideal S1024x4096 .bf16 := iblk m c 2 t

theorem hz : (![0, 0] : Fin 2 → Nat) = fun _ => 0 := funext fun a => by fin_cases a <;> rfl

/-- The printed index maps over the grid: the batch-row windows are at block `(t, 0)`, the two memory windows at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The arrays the region finds -/

theorem V_z (c : Dev nD) : (V m c main_v0 : S16384x1024.Idx → EReal) = zArr m c := by
  dsimp only [V, hostOps0]; after_results; rfl

theorem V_mem (c : Dev nD) : (V m c main_v1 : S4096x1024.Idx → EReal) = memArr m c := by
  dsimp only [V, hostOps0]; after_results; rfl

theorem V_memT (c : Dev nD) : (V m c main_v3 : S1024x4096.Idx → EReal)
    = transpose S1024x4096 [1, 0] (memArr m c) transposes_S4096x1024_S1024x4096_1_0 := by
  dsimp only [V, hostOps0]; after_results; rfl

/-! ## The input blocks as entries of the arguments -/

/-- Row `p` of point `t`'s block of `z` is batch row `128 t + p`. -/
theorem zBlk_apply (c : Dev nD) (t : Fin cfg0.N) (p : Fin 128) (k : Fin 1024) (r : Fin 16384)
    (hr : r.val = 128 * t.val + p.val) : zBlk m c t (ix2 p k) = zArr m c (ix2 r k) := by
  obtain ⟨e0, e1, -⟩ := idx_facts t
  unfold zBlk iblk
  rw [View.read_apply]
  show (V m c main_v0 : S16384x1024.Idx → EReal) _ = _
  rw [V_z]
  refine congrArg (zArr m c) (funext fun a => Fin.ext ?_)
  match a with
  | ⟨0, _⟩ => show win0_0.index t (0 : Fin 2) * 128 + 1 * p.val = r.val; rw [e0, hr]; omega
  | ⟨1, _⟩ => show win0_0.index t (1 : Fin 2) * 1024 + 1 * k.val = k.val; rw [e1]; omega

/-- The `memory` block is the whole `memory`. -/
theorem memBlk_apply (c : Dev nD) (t : Fin cfg0.N) (j : Fin 4096) (k : Fin 1024) :
    memBlk m c t (ix2 j k) = memArr m c (ix2 j k) := by
  obtain ⟨-, -, e2, e3, -⟩ := idx_facts t
  unfold memBlk iblk
  rw [View.read_apply]
  show (V m c main_v1 : S4096x1024.Idx → EReal) _ = _
  rw [V_mem]
  refine congrArg (memArr m c) (funext fun a => Fin.ext ?_)
  match a with
  | ⟨0, _⟩ => show win0_1.index t (0 : Fin 2) * 4096 + 1 * j.val = j.val; rw [e2]; omega
  | ⟨1, _⟩ => show win0_1.index t (1 : Fin 2) * 1024 + 1 * k.val = k.val; rw [e3]; omega

/-- The `memoryᵀ` block at `(k, j)` is `memory (j, k)`. -/
theorem memTBlk_apply (c : Dev nD) (t : Fin cfg0.N) (k : Fin 1024) (j : Fin 4096) :
    memTBlk m c t (ix2 k j) = memArr m c (ix2 j k) := by
  obtain ⟨-, -, -, -, e4, e5, -⟩ := idx_facts t
  unfold memTBlk iblk
  rw [View.read_apply]
  show (V m c main_v3 : S1024x4096.Idx → EReal) _ = _
  rw [V_memT]
  refine transpose_apply [1, 0] (memArr m c) transposes_S4096x1024_S1024x4096_1_0 _ (ix2 j k) (fun b => ?_)
  match b with
  | ⟨0, _⟩ => show k.val = win0_2.index t (0 : Fin 2) * 1024 + 1 * k.val; rw [e4]; omega
  | ⟨1, _⟩ => show j.val = win0_2.index t (1 : Fin 2) * 4096 + 1 * j.val; rw [e5]; omega

/-! ## What a point computes, as entries of the specification's arrays -/

/-- The attention block of point `t` at `y` is `attK` at batch row `128 t + y₀`, column `y₁`. -/
theorem att_block (c : Dev nD) (t : Fin cfg0.N) (y : S128x4096.Idx) (i : S16384x4096.Idx)
    (h0 : (i 0).val = 128 * t.val + (y 0).val) (h1 : (i 1).val = (y 1).val) :
    k0_pay1 (F := Ideal) (zBlk m c t) (memTBlk m c t) y = attK (zArr m c) (memArr m c) i := by
  rw [eq_ix2 y]
  refine (pay1_apply (zBlk m c t) (memTBlk m c t) (y 0) (y 1)).trans ?_
  unfold attK
  have hrow : (fun j : Fin 4096 => ∑ k : Fin 1024, zBlk m c t (ix2 (y 0) k) * memTBlk m c t (ix2 k j))
      = scoreRow (zArr m c) (memArr m c) (i 0) := funext fun j => by
    unfold scoreRow
    exact Finset.sum_congr rfl fun k _ => by rw [zBlk_apply m c t (y 0) k (i 0) h0, memTBlk_apply]
  rw [hrow, show (y 1 : Fin 4096) = i 1 from Fin.ext h1.symm]

/-- The read-out block of point `t` at `y` is `readOut attK` at batch row `128 t + y₀`, column `y₁`. -/
theorem read_block (c : Dev nD) (t : Fin cfg0.N) (y : S128x1024.Idx) (i : S16384x1024.Idx)
    (h0 : (i 0).val = 128 * t.val + (y 0).val) (h1 : (i 1).val = (y 1).val) :
    k0_pay2 (F := Ideal) (zBlk m c t) (memTBlk m c t) (memBlk m c t) y
      = readOut (attK (zArr m c) (memArr m c)) (memArr m c) i := by
  rw [pay2_eq, eq_ix2 y]
  refine (readBlk_apply _ (memBlk m c t) (y 0) (y 1)).trans ?_
  unfold readOut
  refine Finset.sum_congr rfl fun j _ => ?_
  have ha : k0_pay1 (F := Ideal) (zBlk m c t) (memTBlk m c t) (ix2 (y 0) j)
      = attK (zArr m c) (memArr m c) (ix2 (i 0) j) := att_block m c t (ix2 (y 0) j) (ix2 (i 0) j) h0 rfl
  have hb : memBlk m c t (ix2 j (y 1)) = memArr m c (ix2 j (i 1)) :=
    (memBlk_apply m c t j (y 1)).trans (congrArg (fun q : Fin 1024 => memArr m c (ix2 j q)) (Fin.ext h1.symm))
  exact congrArg₂ (fun a b : EReal => a * b) ha hb

/-! ## What each point writes back -/

theorem flushed3_eq (c : Dev nD) (t : Fin cfg0.N) :
    (dats m 0 c).flushed 3 t = ((cfg0.win 3).blk t).view.read (Elt Ideal) (attK (zArr m c) (memArr m c)) := by
  obtain ⟨-, -, -, -, -, -, e6, e7, -⟩ := idx_facts t
  rw [flushed3]
  unfold out0_3
  rw [View.canon_unit_zero hz]
  simp only [View.ld_unit_zero (S := S128x1024) hz, View.ld_unit_zero (S := S1024x4096) hz]
  funext j
  show k0_pay1 (F := Ideal) (zBlk m c t) (memTBlk m c t) j
    = attK (zArr m c) (memArr m c) (((cfg0.win 3).blk t).view.emb j)
  refine att_block m c t j _ ?_ ?_
  · show win0_3.index t (0 : Fin 2) * 128 + 1 * (j 0).val = 128 * t.val + (j 0).val; rw [e6]; omega
  · show win0_3.index t (1 : Fin 2) * 4096 + 1 * (j 1).val = (j 1).val; rw [e7]; omega

theorem flushed4_eq (c : Dev nD) (t : Fin cfg0.N) :
    (dats m 0 c).flushed 4 t
      = ((cfg0.win 4).blk t).view.read (Elt Ideal) (readOut (attK (zArr m c) (memArr m c)) (memArr m c)) := by
  obtain ⟨-, -, -, -, -, -, -, -, e8, e9⟩ := idx_facts t
  rw [flushed4]
  unfold out0_4
  rw [View.canon_unit_zero hz]
  simp only [View.ld_unit_zero (S := S128x1024) hz, View.ld_unit_zero (S := S1024x4096) hz,
    View.ld_unit_zero (S := S4096x1024) hz]
  funext j
  show k0_pay2 (F := Ideal) (zBlk m c t) (memTBlk m c t) (memBlk m c t) j
    = readOut (attK (zArr m c) (memArr m c)) (memArr m c) (((cfg0.win 4).blk t).view.emb j)
  refine read_block m c t j _ ?_ ?_
  · show win0_4.index t (0 : Fin 2) * 128 + 1 * (j 0).val = 128 * t.val + (j 0).val; rw [e8]; omega
  · show win0_4.index t (1 : Fin 2) * 1024 + 1 * (j 1).val = (j 1).val; rw [e9]; omega

/-! ## The row blocks tile the results -/

theorem mem_blk3 (t : Fin cfg0.N) (i : S16384x4096.Idx) :
    i ∈ ((cfg0.win 3).blk t).view.set ↔ ∀ a : Fin 2, win0_3.index t a * S128x4096.size a ≤ (i a).val
      ∧ (i a).val < win0_3.index t a * S128x4096.size a + S128x4096.size a := by
  show i ∈ ((View.whole main_v4_0).slice (win0_3.rect t)).set ↔ _
  rw [View.set_slice_whole, Rect.mem_set_unit]
  exact Iff.rfl

theorem mem_blk4 (t : Fin cfg0.N) (i : S16384x1024.Idx) :
    i ∈ ((cfg0.win 4).blk t).view.set ↔ ∀ a : Fin 2, win0_4.index t a * S128x1024.size a ≤ (i a).val
      ∧ (i a).val < win0_4.index t a * S128x1024.size a + S128x1024.size a := by
  show i ∈ ((View.whole main_v4_1).slice (win0_4.rect t)).set ↔ _
  rw [View.set_slice_whole, Rect.mem_set_unit]
  exact Iff.rfl

/-- Batch row `r` of the first result is in the block of point `r / 128`. -/
theorem cover3 (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 128 := N_0
  refine ⟨⟨(i 0).val / 128, by rw [hN]; omega⟩, flush0_3 _, ?_⟩
  obtain ⟨-, -, -, -, -, -, e6, e7, -⟩ := idx_facts ⟨(i 0).val / 128, by rw [hN]; omega⟩
  rw [mem_blk3]
  intro a
  match a with
  | ⟨0, _⟩ =>
    show win0_3.index _ (0 : Fin 2) * 128 ≤ (i 0).val ∧ (i 0).val < win0_3.index _ (0 : Fin 2) * 128 + 128
    rw [e6]; show (i 0).val / 128 * 128 ≤ (i 0).val ∧ (i 0).val < (i 0).val / 128 * 128 + 128; omega
  | ⟨1, _⟩ =>
    show win0_3.index _ (1 : Fin 2) * 4096 ≤ (i 1).val ∧ (i 1).val < win0_3.index _ (1 : Fin 2) * 4096 + 4096
    rw [e7]; omega

/-- Batch row `r` of the second result is in the block of point `r / 128`. -/
theorem cover4 (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 128 := N_0
  refine ⟨⟨(i 0).val / 128, by rw [hN]; omega⟩, flush0_4 _, ?_⟩
  obtain ⟨-, -, -, -, -, -, -, -, e8, e9⟩ := idx_facts ⟨(i 0).val / 128, by rw [hN]; omega⟩
  rw [mem_blk4]
  intro a
  match a with
  | ⟨0, _⟩ =>
    show win0_4.index _ (0 : Fin 2) * 128 ≤ (i 0).val ∧ (i 0).val < win0_4.index _ (0 : Fin 2) * 128 + 128
    rw [e8]; show (i 0).val / 128 * 128 ≤ (i 0).val ∧ (i 0).val < (i 0).val / 128 * 128 + 128; omega
  | ⟨1, _⟩ =>
    show win0_4.index _ (1 : Fin 2) * 1024 ≤ (i 1).val ∧ (i 1).val < win0_4.index _ (1 : Fin 2) * 1024 + 1024
    rw [e9]; omega

/-! ## The results after the run -/

theorem final3 (c : Dev nD) : (dats m 0 c).arrAt 3 cfg0.N = attK (zArr m c) (memArr m c) :=
  (dats m 0 c).arrAt_eq_of_cover 3 (attK (zArr m c) (memArr m c)) (fun t _ => flushed3_eq m c t) cover3

theorem final4 (c : Dev nD) :
    (dats m 0 c).arrAt 4 cfg0.N = readOut (attK (zArr m c) (memArr m c)) (memArr m c) :=
  (dats m 0 c).arrAt_eq_of_cover 4 (readOut (attK (zArr m c) (memArr m c)) (memArr m c))
    (fun t _ => flushed4_eq m c t) cover4

/-- The kernel's run: the first result ends at `attK` of the arguments, the second at its read-out, the arguments
    unchanged. -/
theorem run : θ_run defs (onTc (τ := τ) (main (F := Ideal))) ⟨m, fun _ => 0, ρ⟩ fun r => ∀ c : Dev nD,
      r.2.mem ((c : Thread nD τ).loc main_v4_0) = attK (zArr m c) (memArr m c)
      ∧ r.2.mem ((c : Thread nD τ).loc main_v4_1) = readOut (attK (zArr m c) (memArr m c)) (memArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final3 m c), (h c).2.1.trans (final4 m c), (h c).2.2.1, (h c).2.2.2⟩)
    (run_blocks m ρ)

end Cert.KernelIdeal.ArrValue

end
-- ==== Proof.RefValue.lean ====
/-
  The reference's two results are the specification's arrays.

  The reference computes, stage by stage over whole arrays: the scores `z · memoryᵀ`; a softmax along each row,
  written with the row maximum subtracted (the maximum taken from `-∞` and joined once more with `-∞`, which changes
  nothing: `max b (fold max b f) = fold max b f`); the hard-shrink; a second softmax written the same way; and the
  read-out `att · memory`.  Each stage read at the index `(r, q)` is the row-wise function of RowMath.lean applied to
  row `r` of the stage before, so the first result is `attR` and the second `readOut attR`.
-/
import proofs.«403339_j72567767433400_3_alg».proof.Proof.Gen.ReferenceIdeal.Read
import proofs.«403339_j72567767433400_3_alg».proof.Proof.AttnSpec

noncomputable section

namespace Cert.ReferenceIdeal.RefValue

open Cert.ReferenceIdeal Cert.ReferenceIdeal.Gen Cert.ReferenceIdeal.Read
open Idealize.ShloMosaic Idealize.ShloMosaic.ValueIdx SparseAttn

/-! ## A row reduction of an array given by rows -/

/-- The rows of a `[16384, 4096]` array reduce to `[16384]` along the second axis. -/
theorem reduces_rows : S16384x4096.Reduces [1] S16384 := by decide

/-- The index a reduction over the second axis inserts is `(r, k)`. -/
theorem lift_row (r : Fin 16384) (k : Fin 4096) : reduces_rows.lift (ix1 r) k = ix2 r k :=
  funext fun a => Fin.ext (by match a with | ⟨0, _⟩ => rfl | ⟨1, _⟩ => rfl)

/-- The host's maximum along the rows of an array whose row `r` is `f r`, from `-∞`. -/
theorem reduceMax_row (X : FVec Ideal S16384x4096 .f32) (f : Fin 16384 → Fin 4096 → EReal)
    (hX : ∀ r q, X (ix2 r q) = f r q) (c : FVec Ideal S_ .f32) (hc : ∀ i, c i = negInf) (r : Fin 16384) :
    Host.reduce FloatOps.maximumf X c reducesTo_S16384x4096_S16384_d1 h_S_ (ix1 r) = rowMax negInf (f r) := by
  rw [Host.reduce_eq_fold_single FloatOps.maximumf X c reducesTo_S16384x4096_S16384_d1 reduces_rows h_S_, hc]
  have hf : (X ∘ reduces_rows.lift (ix1 r)) = f r := funext fun k => (congrArg X (lift_row r k)).trans (hX r k)
  exact congrArg (fun g : Fin 4096 → EReal => Finset.univ.fold max negInf g) hf

/-- The host's sum along the rows of an array whose row `r` is `f r`, from zero. -/
theorem reduceAdd_row (X : FVec Ideal S16384x4096 .f32) (f : Fin 16384 → Fin 4096 → EReal)
    (hX : ∀ r q, X (ix2 r q) = f r q) (c : FVec Ideal S_ .f32) (hc : ∀ i, c i = Ideal.ofBits .f32 0x00000000#32)
    (r : Fin 16384) :
    Host.reduceAdd X c reducesTo_S16384x4096_S16384_d1 h_S_ (ix1 r) = ∑ k : Fin 4096, f r k := by
  simp only [Host.reduceAdd, Ideal.hostReduceAdd_def]
  rw [Ideal.hostReduceAdd_single reducesTo_S16384x4096_S16384_d1 reduces_rows, hc, Ideal.ofBits_zero_f32, zero_add]
  exact Finset.sum_congr rfl fun k _ => (congrArg X (lift_row r k)).trans (hX r k)

/-- Joining a fold of `max` once more with its own starting value changes nothing. -/
theorem max_rowMax (b : EReal) (x : Fin 4096 → EReal) : max b (rowMax b x) = rowMax b x :=
  max_eq_right ((Finset.le_fold_max _).mpr (Or.inl le_rfl))

/-! ## The index maps of the printed layout operations, at `(r, q)` -/

theorem idx_col (r : Fin 16384) (q : Fin 4096) : idx_main_v5 (idx_main_v6 (ix2 r q)) = ix1 r :=
  funext fun a => Fin.ext (by match a with | ⟨0, _⟩ => rfl)

variable (x0 : (⟨S16384x1024, .f32⟩ : BufTy).Contents (Elt Ideal)) (x1 : (⟨S4096x1024, .f32⟩ : BufTy).Contents (Elt Ideal))

/-! ## The first softmax -/

/-- The scores. -/
theorem score_apply (r : Fin 16384) (q : Fin 4096) :
    val_main_v1 (F := Ideal) x0 x1 (ix2 r q) = scoreRow x0 x1 r q := by
  rw [val_main_v1_apply]
  unfold scoreRow
  refine Finset.sum_congr rfl fun k _ => ?_
  rw [val_main_v0_apply]
  have e1 : lidx_main_v1 (ix2 r q) k = ix2 r k :=
    funext fun a => Fin.ext (by match a with | ⟨0, _⟩ => rfl | ⟨1, _⟩ => rfl)
  have e2 : idx_main_v0 (ridx_main_v1 (ix2 r q) k) = ix2 q k :=
    funext fun a => Fin.ext (by match a with | ⟨0, _⟩ => rfl | ⟨1, _⟩ => rfl)
  rw [e1, e2]

/-- The row maximum of the scores. -/
theorem max1_apply (r : Fin 16384) :
    val_main_v4 (F := Ideal) x0 x1 (ix1 r) = rowMax negInf (scoreRow x0 x1 r) := by
  rw [val_main_v4_apply, val_main_v3_apply, val_main_cst_0_apply]
  unfold val_main_v2
  rw [reduceMax_row (val_main_v1 (F := Ideal) x0 x1) _ (score_apply x0 x1) (val_main_cst (F := Ideal)) (fun _ => rfl)]
  exact max_rowMax _ _

/-- The shifted exponentials. -/
theorem exp1_apply (r : Fin 16384) (q : Fin 4096) :
    val_main_v8 (F := Ideal) x0 x1 (ix2 r q)
      = Ideal.exp (scoreRow x0 x1 r q - rowMax negInf (scoreRow x0 x1 r)) := by
  rw [val_main_v8_apply, val_main_v7_apply, val_main_v6_apply, val_main_v5_apply, idx_col, max1_apply, score_apply]
  rfl

/-- The first softmax. -/
theorem att1_apply (r : Fin 16384) (q : Fin 4096) :
    val_main_v12 (F := Ideal) x0 x1 (ix2 r q)
      = softmaxShift (rowMax negInf (scoreRow x0 x1 r)) (scoreRow x0 x1 r) q := by
  rw [val_main_v12_apply, val_main_v11_apply, val_main_v10_apply, exp1_apply]
  have e : idx_main_v10 (idx_main_v11 (ix2 r q)) = ix1 r :=
    funext fun a => Fin.ext (by match a with | ⟨0, _⟩ => rfl)
  rw [e]
  unfold val_main_v9
  rw [reduceAdd_row (val_main_v8 (F := Ideal) x0 x1) _ (exp1_apply x0 x1) (val_main_cst_1 (F := Ideal)) (fun _ => rfl)]
  rfl

/-! ## The hard-shrink -/

theorem shrunk_apply (r : Fin 16384) (q : Fin 4096) :
    val_main_v20 (F := Ideal) x0 x1 (ix2 r q) = shrunk negInf lam eps (scoreRow x0 x1 r) q := by
  rw [val_main_v20_apply, val_main_v16_apply, val_main_v19_apply, val_main_v15_apply, val_main_v17_apply,
    val_main_v14_apply, val_main_v13_apply, val_main_cst_2_apply, val_main_call0_v0_apply, val_main_call0_cst_apply,
    val_main_v18_apply, val_main_cst_3_apply, att1_apply]
  show Ideal.div (max (_ - lam) (Ideal.ofBits .f32 0x00000000#32) * _) (max (_ - lam) (-(_ - lam)) + eps) = _
  rw [Ideal.ofBits_zero_f32]
  rfl

/-! ## The second softmax -/

theorem max2_apply (r : Fin 16384) :
    val_main_v23 (F := Ideal) x0 x1 (ix1 r) = rowMax negInf (shrunk negInf lam eps (scoreRow x0 x1 r)) := by
  rw [val_main_v23_apply, val_main_v22_apply, val_main_cst_5_apply]
  unfold val_main_v21
  rw [reduceMax_row (val_main_v20 (F := Ideal) x0 x1) _ (shrunk_apply x0 x1) (val_main_cst_4 (F := Ideal)) (fun _ => rfl)]
  exact max_rowMax _ _

theorem exp2_apply (r : Fin 16384) (q : Fin 4096) :
    val_main_v27 (F := Ideal) x0 x1 (ix2 r q)
      = Ideal.exp (shrunk negInf lam eps (scoreRow x0 x1 r) q
          - rowMax negInf (shrunk negInf lam eps (scoreRow x0 x1 r))) := by
  rw [val_main_v27_apply, val_main_v26_apply, val_main_v25_apply, val_main_v24_apply]
  have e : idx_main_v24 (idx_main_v25 (ix2 r q)) = ix1 r :=
    funext fun a => Fin.ext (by match a with | ⟨0, _⟩ => rfl)
  rw [e, max2_apply, shrunk_apply]
  rfl

/-- The reference's attention at `(r, q)`. -/
theorem att_apply (r : Fin 16384) (q : Fin 4096) :
    val_main_v31 (F := Ideal) x0 x1 (ix2 r q) = attShift negInf lam eps (scoreRow x0 x1 r) q := by
  rw [val_main_v31_apply, val_main_v30_apply, val_main_v29_apply, exp2_apply]
  have e : idx_main_v29 (idx_main_v30 (ix2 r q)) = ix1 r :=
    funext fun a => Fin.ext (by match a with | ⟨0, _⟩ => rfl)
  rw [e]
  unfold val_main_v28
  rw [reduceAdd_row (val_main_v27 (F := Ideal) x0 x1) _ (exp2_apply x0 x1) (val_main_cst_6 (F := Ideal)) (fun _ => rfl)]
  rfl

/-! ## The two results -/

/-- The reference's first result is the attention array with the second softmax shifted. -/
theorem att_eq : val_main_v31 (F := Ideal) x0 x1 = attR x0 x1 := by
  funext i
  rw [eq_ix2 i]
  exact att_apply x0 x1 (i 0) (i 1)

/-- The reference's second result is the read-out of that array. -/
theorem readOut_eq : val_main_v32 (F := Ideal) x0 x1 = readOut (attR x0 x1) x1 := by
  funext i
  rw [val_main_v32_apply, att_eq]
  unfold readOut
  refine Finset.sum_congr rfl fun k _ => ?_
  have e1 : lidx_main_v32 i k = ix2 (i 0) k :=
    funext fun a => Fin.ext (by match a with | ⟨0, _⟩ => rfl | ⟨1, _⟩ => rfl)
  have e2 : ridx_main_v32 i k = ix2 k (i 1) :=
    funext fun a => Fin.ext (by match a with | ⟨0, _⟩ => rfl | ⟨1, _⟩ => rfl)
  rw [e1, e2]
  rfl

end Cert.ReferenceIdeal.RefValue

end
-- ==== Proof.lean ====
/-
  The sparse-attention memory read: a Pallas kernel over 128 blocks of 128 batch rows against its jnp reference,
  equal over the extended reals on finite inputs.

  Both programs compute, for `z : [16384, 1024]` and `memory : [4096, 1024]`,
      w = z · memoryᵀ,   a = softmax w (row maximum subtracted),   ŵ = max (a - λ) 0 · a / (|a - λ| + ε),
      att = softmax ŵ,   ẑ = att · memory,
  and return `(att, ẑ)`.  They differ in one place: the reference subtracts the row maximum of `ŵ` before the second
  exponential and the kernel does not.  On the extended reals  exp (x - m) / ∑ exp (xₖ - m) = exp x / ∑ exp xₖ  holds
  for real `x` and `m` (the factor `exp (-m)` cancels) and fails at `m = ±∞`, so the equality uses the precondition:
  finite inputs make every score a finite sum of real products, the first normalizer a positive real, `|d| + ε` a
  positive real, hence `ŵ` and its row maximum real (RowMath.lean, AttnSpec.lean, Finite.lean).
  The kernel's blocks are read as rows of the arguments and put together into whole arrays in KernelBlock.lean and
  KernelArrays.lean; the reference's stages are read in RefValue.lean.  The changes of float format in the kernel are
  the identity at the ideal values, and the ideal pass rewrote nothing, so `preserves` has no conjunct.
-/
import proofs.«403339_j72567767433400_3_alg».proof.Defs
import proofs.«403339_j72567767433400_3_alg».proof.Proof.Gen.Kernel
import proofs.«403339_j72567767433400_3_alg».proof.Proof.Gen.Kernel.Skeleton
import proofs.«403339_j72567767433400_3_alg».proof.Proof.Gen.Kernel.Launch
import proofs.«403339_j72567767433400_3_alg».proof.Proof.Gen.Kernel.Points
import proofs.«403339_j72567767433400_3_alg».proof.Proof.Gen.Kernel.Frame
import proofs.«403339_j72567767433400_3_alg».proof.Proof.Gen.KernelIdeal
import proofs.«403339_j72567767433400_3_alg».proof.Proof.Gen.KernelIdeal.Skeleton
import proofs.«403339_j72567767433400_3_alg».proof.Proof.Gen.KernelIdeal.Launch
import proofs.«403339_j72567767433400_3_alg».proof.Proof.Gen.KernelIdeal.Points
import proofs.«403339_j72567767433400_3_alg».proof.Proof.Gen.KernelIdeal.Frame
import proofs.«403339_j72567767433400_3_alg».proof.Proof.Gen.ReferenceIdeal
import proofs.«403339_j72567767433400_3_alg».proof.Proof.Gen.Pre_finite_inputs
import proofs.«403339_j72567767433400_3_alg».proof.Proof.Gen.KernelIdeal.Value
import proofs.«403339_j72567767433400_3_alg».proof.Proof.Gen.ReferenceIdeal.Run
import proofs.«403339_j72567767433400_3_alg».proof.Proof.Gen.ReferenceIdeal.Read
import proofs.«403339_j72567767433400_3_alg».proof.Proof.Finite
import proofs.«403339_j72567767433400_3_alg».proof.Proof.KernelArrays
import proofs.«403339_j72567767433400_3_alg».proof.Proof.RefValue
import Idealize.ShloMosaic.Adequacy
import Idealize.ShloMosaic.Init

noncomputable section

namespace Cert.Proof

open Idealize.ShloMosaic Idealize.ShloMosaic.TcCoe Idealize.SL.Sem SparseAttn

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a host program: its run, with the results dropped. -/
theorem frame_reference : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- From memories agreeing on finite arguments the kernel ends at `(attK, readOut attK)` and the reference at
    `(attR, readOut attR)` of the same arrays, and `attR = attK` there. -/
theorem algebraic : Cert.algebraic_KernelIdeal_ReferenceIdeal := by
  intro m ρ m' ρ' hpre hagree
  have hreal := fun c => SparseAttn.Finite.real_of_pre _ _ (hpre c)
  refine ⟨fun c => attK (Cert.KernelIdeal.ArrValue.zArr m c) (Cert.KernelIdeal.ArrValue.memArr m c),
    fun c => readOut (attK (Cert.KernelIdeal.ArrValue.zArr m c) (Cert.KernelIdeal.ArrValue.memArr m c))
      (Cert.KernelIdeal.ArrValue.memArr m c),
    Cert.KernelIdeal.ArrValue.run m ρ, ?_⟩
  refine (θ_run Cert.ReferenceIdeal.defs _ _).mono (fun _ h c => ?_)
    (Cert.ReferenceIdeal.Value.run (F := Ideal) m' ρ')
  obtain ⟨h1, h2, h3, h4⟩ := h c
  have e := attR_eq_attK (hreal c).1 (hreal c).2
  refine ⟨h1.trans ?_, h2.trans ?_, h3, h4⟩
  · rw [Cert.ReferenceIdeal.Read.val_main_v31_eq, (hagree c).1, (hagree c).2, Cert.ReferenceIdeal.RefValue.att_eq]
    exact e
  · rw [Cert.ReferenceIdeal.Read.val_main_v32_eq, (hagree c).1, (hagree c).2, Cert.ReferenceIdeal.RefValue.readOut_eq]
    exact congrArg (fun a => readOut a _) e

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
